-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x5000 : Shape := ⟨2, ![4096, 5000]⟩
abbrev S2000x5000 : Shape := ⟨2, ![2000, 5000]⟩
abbrev S2000 : Shape := ⟨1, ![2000]⟩
abbrev S5000 : Shape := ⟨1, ![5000]⟩
abbrev S50x2000 : Shape := ⟨2, ![50, 2000]⟩
abbrev S_ : Shape := ⟨0, ![]⟩

class Facts : Prop where
  bcast_S_S4096x5000 : S_.BroadcastsInDim S4096x5000 (![] : Fin 0 → Fin S4096x5000.rank)
  reducesTo_S4096x5000_S_d0_1 : S4096x5000.ReducesTo [0, 1] S_
  h_S_ : 0 < S_.numel
  bcast_S_S2000x5000 : S_.BroadcastsInDim S2000x5000 (![] : Fin 0 → Fin S2000x5000.rank)
  reducesTo_S2000x5000_S_d0_1 : S2000x5000.ReducesTo [0, 1] S_
  bcast_S_S2000 : S_.BroadcastsInDim S2000 (![] : Fin 0 → Fin S2000.rank)
  reducesTo_S2000_S_d0 : S2000.ReducesTo [0] S_
  bcast_S_S5000 : S_.BroadcastsInDim S5000 (![] : Fin 0 → Fin S5000.rank)
  reducesTo_S5000_S_d0 : S5000.ReducesTo [0] S_
  bcast_S_S50x2000 : S_.BroadcastsInDim S50x2000 (![] : Fin 0 → Fin S50x2000.rank)
  reducesTo_S50x2000_S_d0_1 : S50x2000.ReducesTo [0, 1] S_

variable [Facts]

def fn_part1 {F : FTy → Type} [FloatOps F] (main_arg4 : FVec F S5000 .f32) (main_arg5 : FVec F S50x2000 .f32) (main_v13 : IVec S_ 1) (main_v16 : IVec S2000 1) : IVec S_ 1 :=
  let main_c_5 : IVec S_ 1 := constantI S_ 1 1#1
  let main_v17 : IVec S_ 1 := (fun x v => Host.reduce IntOp.andi x v reducesTo_S2000_S_d0 h_S_) main_v16 main_c_5
  let main_v18 : IVec S_ 1 := andi main_v13 main_v17
  let main_v19 : FVec F S5000 .f32 := Host.absf main_arg4
  let main_cst_6 : FVec F S_ .f32 := constant S_ .f32 0x7F800000#32
  let main_v20 : FVec F S5000 .f32 := broadcastInDim S5000 ![] bcast_S_S5000 main_cst_6
  let main_v21 : IVec S5000 1 := cmpf .olt main_v19 main_v20
  let main_c_7 : IVec S_ 1 := constantI S_ 1 1#1
  let main_v22 : IVec S_ 1 := (fun x v => Host.reduce IntOp.andi x v reducesTo_S5000_S_d0 h_S_) main_v21 main_c_7
  let main_v23 : IVec S_ 1 := andi main_v18 main_v22
  let main_v24 : FVec F S50x2000 .f32 := Host.absf main_arg5
  let main_cst_8 : FVec F S_ .f32 := constant S_ .f32 0x7F800000#32
  let main_v25 : FVec F S50x2000 .f32 := broadcastInDim S50x2000 ![] bcast_S_S50x2000 main_cst_8
  let main_v26 : IVec S50x2000 1 := cmpf .olt main_v24 main_v25
  let main_c_9 : IVec S_ 1 := constantI S_ 1 1#1
  let main_v27 : IVec S_ 1 := (fun x v => Host.reduce IntOp.andi x v reducesTo_S50x2000_S_d0_1 h_S_) main_v26 main_c_9
  let main_v28 : IVec S_ 1 := andi main_v23 main_v27
  main_v28

def fn {F : FTy → Type} [FloatOps F] (main_arg0 : FVec F S4096x5000 .f32) (main_arg1 : FVec F S2000x5000 .f32) (main_arg2 : FVec F S2000 .f32) (main_arg3 : FVec F S2000 .f32) (main_arg4 : FVec F S5000 .f32) (main_arg5 : FVec F S50x2000 .f32) : IVec S_ 1 :=
  let main_v0 : FVec F S4096x5000 .f32 := Host.absf main_arg0
  let main_cst : FVec F S_ .f32 := constant S_ .f32 0x7F800000#32
  let main_v1 : FVec F S4096x5000 .f32 := broadcastInDim S4096x5000 ![] bcast_S_S4096x5000 main_cst
  let main_v2 : IVec S4096x5000 1 := cmpf .olt main_v0 main_v1
  let main_c : IVec S_ 1 := constantI S_ 1 1#1
  let main_v3 : IVec S_ 1 := (fun x v => Host.reduce IntOp.andi x v reducesTo_S4096x5000_S_d0_1 h_S_) main_v2 main_c
  let main_v4 : FVec F S2000x5000 .f32 := Host.absf main_arg1
  let main_cst_0 : FVec F S_ .f32 := constant S_ .f32 0x7F800000#32
  let main_v5 : FVec F S2000x5000 .f32 := broadcastInDim S2000x5000 ![] bcast_S_S2000x5000 main_cst_0
  let main_v6 : IVec S2000x5000 1 := cmpf .olt main_v4 main_v5
  let main_c_1 : IVec S_ 1 := constantI S_ 1 1#1
  let main_v7 : IVec S_ 1 := (fun x v => Host.reduce IntOp.andi x v reducesTo_S2000x5000_S_d0_1 h_S_) main_v6 main_c_1
  let main_v8 : IVec S_ 1 := andi main_v3 main_v7
  let main_v9 : FVec F S2000 .f32 := Host.absf main_arg2
  let main_cst_2 : FVec F S_ .f32 := constant S_ .f32 0x7F800000#32
  let main_v10 : FVec F S2000 .f32 := broadcastInDim S2000 ![] bcast_S_S2000 main_cst_2
  let main_v11 : IVec S2000 1 := cmpf .olt main_v9 main_v10
  let main_c_3 : IVec S_ 1 := constantI S_ 1 1#1
  let main_v12 : IVec S_ 1 := (fun x v => Host.reduce IntOp.andi x v reducesTo_S2000_S_d0 h_S_) main_v11 main_c_3
  let main_v13 : IVec S_ 1 := andi main_v8 main_v12
  let main_v14 : FVec F S2000 .f32 := Host.absf main_arg3
  let main_cst_4 : FVec F S_ .f32 := constant S_ .f32 0x7F800000#32
  let main_v15 : FVec F S2000 .f32 := broadcastInDim S2000 ![] bcast_S_S2000 main_cst_4
  let main_v16 : IVec S2000 1 := cmpf .olt main_v14 main_v15
  fn_part1 (F := F) main_arg4 main_arg5 main_v13 main_v16
-- ==== Kernel.lean ====
abbrev S4096x5000 : Shape := ⟨2, ![4096, 5000]⟩
abbrev S2000x5000 : Shape := ⟨2, ![2000, 5000]⟩
abbrev S2000 : Shape := ⟨1, ![2000]⟩
abbrev S5000 : Shape := ⟨1, ![5000]⟩
abbrev S50x2000 : Shape := ⟨2, ![50, 2000]⟩
abbrev S200x5000 : Shape := ⟨2, ![200, 5000]⟩
abbrev S4096x2000 : Shape := ⟨2, ![4096, 2000]⟩
abbrev S128x5000 : Shape := ⟨2, ![128, 5000]⟩
abbrev S128x2000 : Shape := ⟨2, ![128, 2000]⟩
abbrev S1x2000 : Shape := ⟨2, ![1, 2000]⟩
abbrev S_ : Shape := ⟨0, ![]⟩
abbrev S4096x50 : Shape := ⟨2, ![4096, 50]⟩
abbrev S128x50 : Shape := ⟨2, ![128, 50]⟩
abbrev S1x5000 : Shape := ⟨2, ![1, 5000]⟩

abbrev nBuf : Space → Nat
  | .hbm => 22
  | .vmem => 20
  | .smem => 0
  | _ => 0

abbrev bufTy : (tb : Table) → Fin (tcTables nBuf tb) → BufTy
  | .hbm, ⟨0, _⟩ => ⟨S4096x5000, .f32⟩
  | .hbm, ⟨1, _⟩ => ⟨S2000x5000, .f32⟩
  | .hbm, ⟨2, _⟩ => ⟨S2000, .f32⟩
  | .hbm, ⟨3, _⟩ => ⟨S2000, .f32⟩
  | .hbm, ⟨4, _⟩ => ⟨S5000, .f32⟩
  | .hbm, ⟨5, _⟩ => ⟨S50x2000, .f32⟩
  | .hbm, ⟨6, _⟩ => ⟨S2000x5000, .bf16⟩
  | .hbm, ⟨7, _⟩ => ⟨S4096x2000, .f32⟩
  | .hbm, ⟨8, _⟩ => ⟨S_, .f32⟩
  | .hbm, ⟨9, _⟩ => ⟨S50x2000, .f32⟩
  | .hbm, ⟨10, _⟩ => ⟨S50x2000, .f32⟩
  | .hbm, ⟨11, _⟩ => ⟨S50x2000, .f32⟩
  | .hbm, ⟨12, _⟩ => ⟨S50x2000, .f32⟩
  | .hbm, ⟨13, _⟩ => ⟨S_, .f32⟩
  | .hbm, ⟨14, _⟩ => ⟨S50x2000, .f32⟩
  | .hbm, ⟨15, _⟩ => ⟨S50x2000, .f32⟩
  | .hbm, ⟨16, _⟩ => ⟨S_, .f32⟩
  | .hbm, ⟨17, _⟩ => ⟨S50x2000, .f32⟩
  | .hbm, ⟨18, _⟩ => ⟨S50x2000, .f32⟩
  | .hbm, ⟨19, _⟩ => ⟨S50x2000, .bf16⟩
  | .hbm, ⟨20, _⟩ => ⟨S4096x5000, .f32⟩
  | .hbm, ⟨21, _⟩ => ⟨S4096x50, .f32⟩
  | .local _ .vmem, ⟨0, _⟩ => ⟨S200x5000, .f32⟩
  | .local _ .vmem, ⟨1, _⟩ => ⟨S200x5000, .f32⟩
  | .local _ .vmem, ⟨2, _⟩ => ⟨S200x5000, .bf16⟩
  | .local _ .vmem, ⟨3, _⟩ => ⟨S200x5000, .bf16⟩
  | .local _ .vmem, ⟨4, _⟩ => ⟨S128x5000, .f32⟩
  | .local _ .vmem, ⟨5, _⟩ => ⟨S128x5000, .f32⟩
  | .local _ .vmem, ⟨6, _⟩ => ⟨S2000x5000, .bf16⟩
  | .local _ .vmem, ⟨7, _⟩ => ⟨S2000, .f32⟩
  | .local _ .vmem, ⟨8, _⟩ => ⟨S2000, .f32⟩
  | .local _ .vmem, ⟨9, _⟩ => ⟨S128x2000, .f32⟩
  | .local _ .vmem, ⟨10, _⟩ => ⟨S128x2000, .f32⟩
  | .local _ .vmem, ⟨11, _⟩ => ⟨S128x2000, .f32⟩
  | .local _ .vmem, ⟨12, _⟩ => ⟨S128x2000, .f32⟩
  | .local _ .vmem, ⟨13, _⟩ => ⟨S2000x5000, .bf16⟩
  | .local _ .vmem, ⟨14, _⟩ => ⟨S50x2000, .bf16⟩
  | .local _ .vmem, ⟨15, _⟩ => ⟨S5000, .f32⟩
  | .local _ .vmem, ⟨16, _⟩ => ⟨S128x5000, .f32⟩
  | .local _ .vmem, ⟨17, _⟩ => ⟨S128x5000, .f32⟩
  | .local _ .vmem, ⟨18, _⟩ => ⟨S128x50, .f32⟩
  | .local _ .vmem, ⟨19, _⟩ => ⟨S128x50, .f32⟩
  | _, _ => ⟨S4096x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x5000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x5000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x2000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2000x5000 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S50x2000 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S5000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x5000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x50 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S200x5000_S200x5000_0_0 : ∀ a, (![0, 0] : Fin 2 → Nat) a + S200x5000.size a ≤ S200x5000.size a
  h_S200x5000 : 0 < S200x5000.numel
  natLt_1_32 : 1 < 32
  bitsLt_bf16_f32 : FTy.bits .bf16 < FTy.bits .f32
  packedbf16_S200x5000_S200x5000_0_0 : (Rect.unit (s := S200x5000) ![0, 0] S200x5000.size inb_S200x5000_S200x5000_0_0).PackedRows (EltTy.packing .bf16)
  inb_S128x5000_S128x5000_0_0 : ∀ a, (![0, 0] : Fin 2 → Nat) a + S128x5000.size a ≤ S128x5000.size a
  h_S128x5000 : 0 < S128x5000.numel
  inb_S2000x5000_S2000x5000_0_0 : ∀ a, (![0, 0] : Fin 2 → Nat) a + S2000x5000.size a ≤ S2000x5000.size a
  h_S2000x5000 : 0 < S2000x5000.numel
  shapeCasts_S2000x5000_S2000x5000 : S2000x5000.ShapeCasts S2000x5000
  inb_S2000_S2000_0 : ∀ a, (![0] : Fin 1 → Nat) a + S2000.size a ≤ S2000.size a
  h_S2000 : 0 < S2000.numel
  shapeCasts_S2000_S1x2000 : S2000.ShapeCasts S1x2000
  broadcasts_S1x2000_S128x2000 : S1x2000.Broadcasts S128x2000
  inb_S128x2000_S128x2000_0_0 : ∀ a, (![0, 0] : Fin 2 → Nat) a + S128x2000.size a ≤ S128x2000.size a
  h_S128x2000 : 0 < S128x2000.numel
  bcast_S_S50x2000 : S_.BroadcastsInDim S50x2000 (![] : Fin 0 → Fin S50x2000.rank)
  shapeCasts_S128x2000_S128x2000 : S128x2000.ShapeCasts S128x2000
  inb_S5000_S5000_0 : ∀ a, (![0] : Fin 1 → Nat) a + S5000.size a ≤ S5000.size a
  h_S5000 : 0 < S5000.numel
  shapeCasts_S5000_S1x5000 : S5000.ShapeCasts S1x5000
  broadcasts_S1x5000_S128x5000 : S1x5000.Broadcasts S128x5000
  inb_S50x2000_S50x2000_0_0 : ∀ a, (![0, 0] : Fin 2 → Nat) a + S50x2000.size a ≤ S50x2000.size a
  h_S50x2000 : 0 < S50x2000.numel
  shapeCasts_S50x2000_S50x2000 : S50x2000.ShapeCasts S50x2000
  inb_S128x50_S128x50_0_0 : ∀ a, (![0, 0] : Fin 2 → Nat) a + S128x50.size a ≤ S128x50.size a
  h_S128x50 : 0 < S128x50.numel
  dot_S128x5000_S2000x5000_S128x2000_1_1_0_0_n_n_wf : DotDims.WF S128x5000 S2000x5000 S128x2000 [1] [1] [0] [0] [] []
  dot_S128x2000_S2000x5000_S128x5000_1_0_0_1_n_n_wf : DotDims.WF S128x2000 S2000x5000 S128x5000 [1] [0] [0] [1] [] []
  dot_S128x2000_S50x2000_S128x50_1_1_0_0_n_n_wf : DotDims.WF S128x2000 S50x2000 S128x50 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x5000.size a ≤ S2000x5000.size a
  hwx0_0 : ∀ i : grid0.Coords, EltTy.bits .f32 = 32 ∨ (Rect.block (s := S2000x5000) S200x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x5000.size a ≤ S2000x5000.size a
  hwx0_1 : ∀ i : grid0.Coords, EltTy.bits .bf16 = 32 ∨ (Rect.block (s := S2000x5000) S200x5000.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5000.size a ≤ S4096x5000.size a
  hwx1_0 : ∀ i : grid1.Coords, EltTy.bits .f32 = 32 ∨ (Rect.block (s := S4096x5000) S128x5000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x5000.size a ≤ S2000x5000.size a
  hwx1_1 : ∀ i : grid1.Coords, EltTy.bits .bf16 = 32 ∨ (Rect.block (s := S2000x5000) S2000x5000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2000.size a ≤ S2000.size a
  hwx1_2 : ∀ i : grid1.Coords, EltTy.bits .f32 = 32 ∨ (Rect.block (s := S2000) S2000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2000.size a ≤ S2000.size a
  hwx1_3 : ∀ i : grid1.Coords, EltTy.bits .f32 = 32 ∨ (Rect.block (s := S2000) S2000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x2000.size a ≤ S4096x2000.size a
  hwx1_4 : ∀ i : grid1.Coords, EltTy.bits .f32 = 32 ∨ (Rect.block (s := S4096x2000) S128x2000.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2000.size a ≤ S4096x2000.size a
  hwx2_0 : ∀ i : grid2.Coords, EltTy.bits .f32 = 32 ∨ (Rect.block (s := S4096x2000) S128x2000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2000x5000.size a ≤ S2000x5000.size a
  hwx2_1 : ∀ i : grid2.Coords, EltTy.bits .bf16 = 32 ∨ (Rect.block (s := S2000x5000) S2000x5000.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50x2000.size a ≤ S50x2000.size a
  hwx2_2 : ∀ i : grid2.Coords, EltTy.bits .bf16 = 32 ∨ (Rect.block (s := S50x2000) S50x2000.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S5000.size a ≤ S5000.size a
  hwx2_3 : ∀ i : grid2.Coords, EltTy.bits .f32 = 32 ∨ (Rect.block (s := S5000) S5000.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x5000.size a ≤ S4096x5000.size a
  hwx2_4 : ∀ i : grid2.Coords, EltTy.bits .f32 = 32 ∨ (Rect.block (s := S4096x5000) S128x5000.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x50.size a ≤ S4096x50.size a
  hwx2_5 : ∀ i : grid2.Coords, EltTy.bits .f32 = 32 ∨ (Rect.block (s := S4096x50) S128x50.size (cc2_transform_5 i) (hinb2_5 i)).WholeWords (EltTy.packing .f32)

variable [Facts₀]

def dot_S128x5000_S2000x5000_S128x2000_1_1_0_0_n_n : DotDims S128x5000 S2000x5000 S128x2000 where
  lhsContracting := [1]
  rhsContracting := [1]
  lhsNonContracting := [0]
  rhsNonContracting := [0]
  lhsBatch := []
  rhsBatch := []
  wf := dot_S128x5000_S2000x5000_S128x2000_1_1_0_0_n_n_wf
def dot_S128x2000_S2000x5000_S128x5000_1_0_0_1_n_n : DotDims S128x2000 S2000x5000 S128x5000 where
  lhsContracting := [1]
  rhsContracting := [0]
  lhsNonContracting := [0]
  rhsNonContracting := [1]
  lhsBatch := []
  rhsBatch := []
  wf := dot_S128x2000_S2000x5000_S128x5000_1_0_0_1_n_n_wf
def dot_S128x2000_S50x2000_S128x50_1_1_0_0_n_n : DotDims S128x2000 S50x2000 S128x50 where
  lhsContracting := [1]
  rhsContracting := [1]
  lhsNonContracting := [0]
  rhsNonContracting := [0]
  lhsBatch := []
  rhsBatch := []
  wf := dot_S128x2000_S50x2000_S128x50_1_1_0_0_n_n_wf

abbrev win0_0 : Pipeline.Window sig grid0 :=
  Pipeline.Window.ofSpec (Memref.whole main_arg1) S200x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x5000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S128x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x5000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x2000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1) S128x2000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2000x5000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S50x2000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S5000.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11_0) S128x5000.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11_1) S128x50.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x5000 : Shape := ⟨2, ![4096, 5000]⟩
abbrev S2000x5000 : Shape := ⟨2, ![2000, 5000]⟩
abbrev S2000 : Shape := ⟨1, ![2000]⟩
abbrev S5000 : Shape := ⟨1, ![5000]⟩
abbrev S50x2000 : Shape := ⟨2, ![50, 2000]⟩
abbrev S_ : Shape := ⟨0, ![]⟩
abbrev S5000x2000 : Shape := ⟨2, ![5000, 2000]⟩
abbrev S4096x2000 : Shape := ⟨2, ![4096, 2000]⟩
abbrev S1x2000 : Shape := ⟨2, ![1, 2000]⟩
abbrev S2000x50 : Shape := ⟨2, ![2000, 50]⟩
abbrev S4096x50 : Shape := ⟨2, ![4096, 50]⟩
abbrev S1x5000 : Shape := ⟨2, ![1, 5000]⟩

abbrev nBuf : Space → Nat
  | .hbm => 43
  | .vmem => 0
  | .smem => 0
  | _ => 0

abbrev bufTy : (tb : Table) → Fin (tcTables nBuf tb) → BufTy
  | .hbm, ⟨0, _⟩ => ⟨S4096x5000, .f32⟩
  | .hbm, ⟨1, _⟩ => ⟨S2000x5000, .f32⟩
  | .hbm, ⟨2, _⟩ => ⟨S2000, .f32⟩
  | .hbm, ⟨3, _⟩ => ⟨S2000, .f32⟩
  | .hbm, ⟨4, _⟩ => ⟨S5000, .f32⟩
  | .hbm, ⟨5, _⟩ => ⟨S50x2000, .f32⟩
  | .hbm, ⟨6, _⟩ => ⟨S_, .f32⟩
  | .hbm, ⟨7, _⟩ => ⟨S2000x5000, .f32⟩
  | .hbm, ⟨8, _⟩ => ⟨S2000x5000, .i1⟩
  | .hbm, ⟨9, _⟩ => ⟨S2000x5000, .f32⟩
  | .hbm, ⟨10, _⟩ => ⟨S5000x2000, .f32⟩
  | .hbm, ⟨11, _⟩ => ⟨S4096x2000, .f32⟩
  | .hbm, ⟨12, _⟩ => ⟨S1x2000, .f32⟩
  | .hbm, ⟨13, _⟩ => ⟨S4096x2000, .f32⟩
  | .hbm, ⟨14, _⟩ => ⟨S4096x2000, .f32⟩
  | .hbm, ⟨15, _⟩ => ⟨S1x2000, .f32⟩
  | .hbm, ⟨16, _⟩ => ⟨S4096x2000, .f32⟩
  | .hbm, ⟨17, _⟩ => ⟨S4096x2000, .f32⟩
  | .hbm, ⟨18, _⟩ => ⟨S_, .f32⟩
  | .hbm, ⟨19, _⟩ => ⟨S4096x2000, .f32⟩
  | .hbm, ⟨20, _⟩ => ⟨S4096x2000, .i1⟩
  | .hbm, ⟨21, _⟩ => ⟨S4096x2000, .f32⟩
  | .hbm, ⟨22, _⟩ => ⟨S_, .f32⟩
  | .hbm, ⟨23, _⟩ => ⟨S50x2000, .f32⟩
  | .hbm, ⟨24, _⟩ => ⟨S50x2000, .f32⟩
  | .hbm, ⟨25, _⟩ => ⟨S50x2000, .f32⟩
  | .hbm, ⟨26, _⟩ => ⟨S50x2000, .f32⟩
  | .hbm, ⟨27, _⟩ => ⟨S_, .f32⟩
  | .hbm, ⟨28, _⟩ => ⟨S50x2000, .f32⟩
  | .hbm, ⟨29, _⟩ => ⟨S50x2000, .f32⟩
  | .hbm, ⟨30, _⟩ => ⟨S_, .f32⟩
  | .hbm, ⟨31, _⟩ => ⟨S50x2000, .f32⟩
  | .hbm, ⟨32, _⟩ => ⟨S50x2000, .f32⟩
  | .hbm, ⟨33, _⟩ => ⟨S2000x50, .f32⟩
  | .hbm, ⟨34, _⟩ => ⟨S4096x50, .f32⟩
  | .hbm, ⟨35, _⟩ => ⟨S4096x5000, .f32⟩
  | .hbm, ⟨36, _⟩ => ⟨S1x5000, .f32⟩
  | .hbm, ⟨37, _⟩ => ⟨S4096x5000, .f32⟩
  | .hbm, ⟨38, _⟩ => ⟨S4096x5000, .f32⟩
  | .hbm, ⟨39, _⟩ => ⟨S_, .f32⟩
  | .hbm, ⟨40, _⟩ => ⟨S4096x5000, .f32⟩
  | .hbm, ⟨41, _⟩ => ⟨S4096x5000, .i1⟩
  | .hbm, ⟨42, _⟩ => ⟨S4096x5000, .f32⟩
  | _, _ => ⟨S4096x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S_S2000x5000 : S_.BroadcastsInDim S2000x5000 (![] : Fin 0 → Fin S2000x5000.rank)
  transposes_S2000x5000_S5000x2000_1_0 : S2000x5000.Transposes [1, 0] S5000x2000
  bcast_S2000_S1x2000_1 : S2000.BroadcastsInDim S1x2000 (![1] : Fin 1 → Fin S1x2000.rank)
  bcast_S1x2000_S4096x2000_0_1 : S1x2000.BroadcastsInDim S4096x2000 (![0, 1] : Fin 2 → Fin S4096x2000.rank)
  bcast_S_S4096x2000 : S_.BroadcastsInDim S4096x2000 (![] : Fin 0 → Fin S4096x2000.rank)
  bcast_S_S50x2000 : S_.BroadcastsInDim S50x2000 (![] : Fin 0 → Fin S50x2000.rank)
  transposes_S50x2000_S2000x50_1_0 : S50x2000.Transposes [1, 0] S2000x50
  bcast_S5000_S1x5000_1 : S5000.BroadcastsInDim S1x5000 (![1] : Fin 1 → Fin S1x5000.rank)
  bcast_S1x5000_S4096x5000_0_1 : S1x5000.BroadcastsInDim S4096x5000 (![0, 1] : Fin 2 → Fin S4096x5000.rank)
  bcast_S_S4096x5000 : S_.BroadcastsInDim S4096x5000 (![] : Fin 0 → Fin S4096x5000.rank)
  dot_S4096x5000_S5000x2000_S4096x2000_1_0_0_1_n_n_wf : DotDims.WF S4096x5000 S5000x2000 S4096x2000 [1] [0] [0] [1] [] []
  dot_S4096x2000_S2000x50_S4096x50_1_0_0_1_n_n_wf : DotDims.WF S4096x2000 S2000x50 S4096x50 [1] [0] [0] [1] [] []
  dot_S4096x2000_S2000x5000_S4096x5000_1_0_0_1_n_n_wf : DotDims.WF S4096x2000 S2000x5000 S4096x5000 [1] [0] [0] [1] [] []

variable [Facts₀]

def dot_S4096x5000_S5000x2000_S4096x2000_1_0_0_1_n_n : DotDims S4096x5000 S5000x2000 S4096x2000 where
  lhsContracting := [1]
  rhsContracting := [0]
  lhsNonContracting := [0]
  rhsNonContracting := [1]
  lhsBatch := []
  rhsBatch := []
  wf := dot_S4096x5000_S5000x2000_S4096x2000_1_0_0_1_n_n_wf
def dot_S4096x2000_S2000x50_S4096x50_1_0_0_1_n_n : DotDims S4096x2000 S2000x50 S4096x50 where
  lhsContracting := [1]
  rhsContracting := [0]
  lhsNonContracting := [0]
  rhsNonContracting := [1]
  lhsBatch := []
  rhsBatch := []
  wf := dot_S4096x2000_S2000x50_S4096x50_1_0_0_1_n_n_wf
def dot_S4096x2000_S2000x5000_S4096x5000_1_0_0_1_n_n : DotDims S4096x2000 S2000x5000 S4096x5000 where
  lhsContracting := [1]
  rhsContracting := [0]
  lhsNonContracting := [0]
  rhsNonContracting := [1]
  lhsBatch := []
  rhsBatch := []
  wf := dot_S4096x2000_S2000x5000_S4096x5000_1_0_0_1_n_n_wf

class Facts : Prop extends Facts₀ where

variable [Facts]
-- ==== Proof.Spec.lean ====
/-
  What the three results are, as functions of the six argument arrays over the extended reals.

  A weight entry is binarised at one half and a pre-activation at one (the step is 1 where the entry is at least the
  threshold, else 0). With  Wb = step_{1/2}(W):
    z[p, h]   = step_1( (Σ_d x[p, d] · Wb[h, d]  +  b[h])  +  a0[h] )                hidden code
    out[p, d] = step_1(  Σ_h z[p, h] · Wb[h, d]  +  a3[d] )                          reconstruction
    cls[p, l] = Σ_h z[p, h] · g[l, h]                                                 class scores against a gate g
  The gate g (a logistic of the classifier weights) is an argument here: both programs compute it by the same host operations.
-/
import Idealize.ShloMosaic.PureOps.Ideal.Laws
import Idealize.ShloMosaic.Lib.ValueIdx

noncomputable section

namespace Cert.Spec

open Idealize.ShloMosaic Idealize.ShloMosaic.ValueIdx

/-- A matrix of extended reals. -/
abbrev Mat (A B : Nat) : Type := (⟨2, ![A, B]⟩ : Shape).Idx → EReal
/-- A vector of extended reals. -/
abbrev Row (A : Nat) : Type := (⟨1, ![A]⟩ : Shape).Idx → EReal

/-- The step at the threshold with bit pattern `w`: 1 where `x` is at least the threshold, else 0
    (the 1-bit comparison read as an unsigned integer). -/
def step (w : BitVec 32) (x : EReal) : EReal :=
  FloatOps.uitofp (F := Ideal) .f32 (FloatOps.cmpf (F := Ideal) (φ := .f32) .oge x (FloatOps.ofBits (F := Ideal) .f32 w))

/-- The same bit widened to 32 bits and read as a signed integer is the same number: a widened bit is 0 or 1. -/
theorem step_eq_signed (w : BitVec 32) (x : EReal) :
    FloatOps.sitofp (F := Ideal) .f32 ((FloatOps.cmpf (F := Ideal) (φ := .f32) .oge x (FloatOps.ofBits (F := Ideal) .f32 w)).setWidth 32) = step w x := by
  unfold step
  generalize FloatOps.cmpf (F := Ideal) (φ := .f32) .oge x (FloatOps.ofBits (F := Ideal) .f32 w) = b
  show (((b.setWidth 32).toInt : ℝ) : EReal) = ((b.toNat : ℝ) : EReal)
  have h : (b.setWidth 32).toInt = (b.toNat : Int) := by
    have hb : b = 0#1 ∨ b = 1#1 := by
      have := b.isLt
      rcases Nat.lt_or_ge b.toNat 1 with h0 | h1
      · left; apply BitVec.eq_of_toNat_eq; simp; omega
      · right; apply BitVec.eq_of_toNat_eq; simp; omega
    rcases hb with rfl | rfl <;> rfl
  rw [h]; simp

/-- The binarised weights. -/
def binW (W : Mat 2000 5000) : Mat 2000 5000 := fun i => step 0x3F000000#32 (W i)

/-- The hidden code from the inputs, the binarised weights and the two bias rows. -/
def hid (x : Mat 4096 5000) (wb : Mat 2000 5000) (b a : Row 2000) : Mat 4096 2000 :=
  fun i => step 0x3F800000#32 (((∑ k : Fin 5000, x (ix2 (i 0) k) * wb (ix2 (i 1) k)) + b (ix1 (i 1))) + a (ix1 (i 1)))

/-- The reconstruction from the hidden code, the binarised weights and a bias row. -/
def dec (z : Mat 4096 2000) (wb : Mat 2000 5000) (a3 : Row 5000) : Mat 4096 5000 :=
  fun i => step 0x3F800000#32 ((∑ k : Fin 2000, z (ix2 (i 0) k) * wb (ix2 k (i 1))) + a3 (ix1 (i 1)))

/-- The class scores from the hidden code and the gate. -/
def cls (z : Mat 4096 2000) (g : Mat 50 2000) : Mat 4096 50 :=
  fun i => ∑ k : Fin 2000, z (ix2 (i 0) k) * g (ix2 (i 1) k)

end Cert.Spec

end
-- ==== Proof.Reg0.lean ====
/-
  Region 0: the weights binarised, 200 rows of the 2000 x 5000 array per grid point.

  The body stores, entry by entry, the comparison  w ≥ 1/2  widened and read as a signed integer, which is the step
  at one half of that entry. Point t reads rows 200t … 200t + 199 of the weights and writes the same rows of the
  result, and the ten points' row blocks cover the array: so the result array ends as the step of the weights.
-/
import proofs.«180020_j15006615734352_1_alg».proof.Proof.Gen.KernelIdeal.Frame
import proofs.«180020_j15006615734352_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's stored value at an entry is the step at one half of the loaded entry. -/
theorem bin_apply (x : Vec Ideal S200x5000 .f32) (j : S200x5000.Idx) :
    k0_pay1 (F := Ideal) x j = Cert.Spec.step 0x3F000000#32 (x j) :=
  Cert.Spec.step_eq_signed 0x3F000000#32 (x j)

/-- Over the grid: the input's and the output's row blocks move together, block t at rows 200t, the columns whole. -/
theorem idx0 : ∀ t : Fin cfg0.N, win0_0.index t (0 : Fin 2) = win0_1.index t (0 : Fin 2)
    ∧ win0_0.index t (1 : Fin 2) = win0_1.index t (1 : Fin 2)
    ∧ win0_1.index t (0 : Fin 2) ≤ 9 ∧ win0_1.index t (1 : Fin 2) = 0 :=
  (by decide +kernel : ∀ t : Fin grid0.N, _)

/-- Every row block is some point's. -/
theorem onto0 : ∀ q : Fin 10, ∃ t : Fin cfg0.N, win0_1.index t = ![q.val, 0] :=
  (by decide +kernel : ∀ q : Fin 10, ∃ t : Fin grid0.N, win0_1.index t = ![q.val, 0])

/-- What point t writes back is block t of the binarised weights. -/
theorem flushed0 (c : Dev nD) (t : Fin cfg0.N) :
    (dat0 V c).flushed 1 t = ((cfg0.win 1).blk t).view.read (Elt Ideal) (Cert.Spec.binW (V c main_arg1)) := by
  show (cfg0.win 1).cut (grid0.coords t) ((dat0 V c).after 1 t) = _
  rw [after0_1]
  unfold out0_1
  rw [View.canon_unit_zero hz2]
  simp only [View.ld_unit_zero (S := S200x5000) hz2]
  obtain ⟨e0, e1, -, -⟩ := idx0 t
  funext j
  have h0 : ((cfg0.win 0).blk t).view.emb j = ((cfg0.win 1).blk t).view.emb j := by
    funext a; apply Fin.ext
    match a with
    | ⟨0, _⟩ => show win0_0.index t (0 : Fin 2) * 200 + 1 * (j 0).val = win0_1.index t (0 : Fin 2) * 200 + 1 * (j 0).val; omega
    | ⟨1, _⟩ => show win0_0.index t (1 : Fin 2) * 5000 + 1 * (j 1).val = win0_1.index t (1 : Fin 2) * 5000 + 1 * (j 1).val; omega
  show k0_pay1 (F := Ideal) (iblk0 V c 0 t) j = Cert.Spec.step 0x3F000000#32 (V c main_arg1 (((cfg0.win 1).blk t).view.emb j))
  rw [bin_apply, ← h0]
  rfl

/-- An entry is in point t's block iff each coordinate is in the block's range. -/
theorem mem_blk0 (t : Fin cfg0.N) (i : S2000x5000.Idx) :
    i ∈ ((cfg0.win 1).blk t).view.set ↔ ∀ a : Fin 2, win0_1.index t a * S200x5000.size a ≤ (i a).val ∧ (i a).val < win0_1.index t a * S200x5000.size a + S200x5000.size a := by
  show i ∈ ((View.whole main_v0).slice (win0_1.rect t)).set ↔ _
  rw [View.set_slice_whole, Rect.mem_set_unit]
  exact Iff.rfl

/-- The ten row blocks cover the array. -/
theorem cover0 (i : S2000x5000.Idx) : ∃ t : Fin cfg0.N, (cfg0.win 1).flush t = true ∧ i ∈ ((cfg0.win 1).blk t).view.set := by
  have hi0 : (i 0).val < 2000 := (i 0).isLt
  have hi1 : (i 1).val < 5000 := (i 1).isLt
  obtain ⟨t, ht⟩ := onto0 ⟨(i 0).val / 200, by omega⟩
  have q0 : win0_1.index t (0 : Fin 2) = (i 0).val / 200 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 200 ≤ (i 0).val ∧ (i 0).val < win0_1.index t (0 : Fin 2) * 200 + 200; omega
  | ⟨1, _⟩ => show win0_1.index t (1 : Fin 2) * 5000 ≤ (i 1).val ∧ (i 1).val < win0_1.index t (1 : Fin 2) * 5000 + 5000; omega

/-- After region 0 the result array holds the binarised weights. -/
theorem final0 (c : Dev nD) : (dat0 V c).arrAt 1 cfg0.N = Cert.Spec.binW (V c main_arg1) :=
  (dat0 V c).arrAt_eq_of_cover 1 (Cert.Spec.binW (V c main_arg1)) (fun t _ => flushed0 V c t) cover0

end Cert.KernelIdeal.Val

end
-- ==== Proof.LibDotRhsT.lean ====
/-
  A matrix product whose right operand is stored transposed, read at an index.

  For the dimension numbers "rows × contraction times columns × contraction" (no batch axis; both operands contracted on
  their last axis) the operand indices at the output index (p, q) and contraction index k are (p, k) and (q, k); so at the
  extended reals a `tpu.matmul` into the zero accumulator is  Σ_k l(p, k) · r(q, k),  a finite sum over the contracted axis.
-/
import Idealize.ShloMosaic.PureOps.Ideal.Laws
import Idealize.ShloMosaic.Lib.ValueIdx
import Idealize.ShloMosaic.Lib.Pipeline.Value

noncomputable section

namespace Cert.LibDotRhsT

open Idealize.ShloMosaic Idealize.ShloMosaic.ValueIdx

variable {M K N : Nat}

/-- The contraction shape of such a product has one axis. -/
theorem contr_rank : (DotDims.transposedRhs M K N).contr.rank = 1 := rfl
/-- Its extent is the shared dimension. -/
theorem contr_size : (DotDims.transposedRhs M K N).contr.size ⟨0, by rw [contr_rank]; exact Nat.one_pos⟩ = K := rfl

/-- The left operand's index at output (p, q) and contraction coordinate k is (p, k). -/
theorem lhsIdx_eq (j : (⟨2, ![M, N]⟩ : Shape).Idx) (k : Fin K) :
    (DotDims.transposedRhs M K N).lhsIdx j ((contrEquiv1 (DotDims.transposedRhs M K N) K contr_rank contr_size).symm k) = ix2 (j 0) k := by
  funext a
  refine Fin.ext ?_
  match a with
  | ⟨0, _⟩ => rfl
  | ⟨1, _⟩ =>
    exact ((DotDims.transposedRhs M K N).lhsIdx_val_of_single (cl := 1) rfl j _).trans
      (contrEquiv1_symm_val (DotDims.transposedRhs M K N) K contr_rank contr_size k)

/-- The right operand's index is (q, k): its row is the output's column. -/
theorem rhsIdx_eq (j : (⟨2, ![M, N]⟩ : Shape).Idx) (k : Fin K) :
    (DotDims.transposedRhs M K N).rhsIdx j ((contrEquiv1 (DotDims.transposedRhs M K N) K contr_rank contr_size).symm k) = ix2 (j 1) k := by
  funext a
  refine Fin.ext ?_
  match a with
  | ⟨0, _⟩ => rfl
  | ⟨1, _⟩ =>
    exact ((DotDims.transposedRhs M K N).rhsIdx_val_of_single (cr := 1) rfl j _).trans
      (contrEquiv1_symm_val (DotDims.transposedRhs M K N) K contr_rank contr_size k)

/-- The contraction sum over its one coordinate. -/
theorem contr_sum (l : (⟨2, ![M, K]⟩ : Shape).Idx → EReal) (r : (⟨2, ![N, K]⟩ : Shape).Idx → EReal) (j : (⟨2, ![M, N]⟩ : Shape).Idx) :
    ∑ k : (DotDims.transposedRhs M K N).contr.Idx, l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K contr_rank contr_size).symm]
  exact Finset.sum_congr rfl fun k _ =>
    congrArg₂ (· * ·) (congrArg l (lhsIdx_eq j k)) (congrArg r (rhsIdx_eq j k))

/-- A `tpu.matmul` against a transposed right operand into the zero accumulator, at an index, whatever the operands' formats. -/
theorem matmul_zero {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    FloatOps.matmul (DotDims.transposedRhs M K N) prec l r (constant ⟨2, ![M, N]⟩ .f32 0x00000000#32) j
      = ∑ k : Fin K, (l (ix2 (j 0) k) : EReal) * (r (ix2 (j 1) k) : EReal) := by
  rw [Ideal.matmul_constant_zero_apply]
  exact contr_sum l r j

end Cert.LibDotRhsT

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Reg1.lean ====
/-
  Region 1: the hidden code, 128 rows of the 4096 x 2000 array per grid point.

  At an entry (p, h) of its block the body stores the step at one of
      (Σ_d x[p, d] · Wb[h, d]  +  b[h])  +  a0[h] :
  a product with the binarised weights contracted on both operands' last axis, into a zero accumulator, then the two
  bias rows broadcast down the rows, then the comparison with one widened and read as a signed integer.
  Point t reads rows 128t … 128t + 127 of the inputs, the weights and both bias rows whole, and writes the same rows of
  the result; the 32 row blocks cover the array.
-/
import proofs.«180020_j15006615734352_1_alg».proof.Proof.Gen.KernelIdeal.Frame
import proofs.«180020_j15006615734352_1_alg».proof.Proof.Spec
import proofs.«180020_j15006615734352_1_alg».proof.Proof.LibDotRhsT
import proofs.«180020_j15006615734352_1_alg».proof.Proof.LibPlainDot
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a <;> rfl

/-- The product in the body, at an entry: the sum over the shared axis of the row of x against the row of the weights.
    (Rounding the left operand's format and recasting the right operand to its own shape change nothing.) -/
theorem enc_dot (x : FVec Ideal S128x5000 .f32) (wb : FVec Ideal S2000x5000 .bf16) (h1 : FTy.bf16.bits < FTy.f32.bits)
    (h2 : S2000x5000.ShapeCasts S2000x5000) (p : Fin 128) (q : Fin 2000) :
    FloatOps.matmul (F := Ideal) (φ₁ := .bf16) (φ₂ := .bf16) dot_S128x5000_S2000x5000_S128x2000_1_1_0_0_n_n none
        (truncf (φ := .f32) .bf16 x h1) (shapeCast S2000x5000 wb h2) (constant S128x2000 .f32 0x00000000#32) (ix2 p q)
      = ∑ k : Fin 5000, x (ix2 p k) * wb (ix2 q k) := by
  rw [shapeCast_self]
  exact Cert.LibDotRhsT.matmul_zero (M := 128) (K := 5000) (N := 2000) none x wb (ix2 p q)

/-- The body's stored value at entry (p, q) of its block. -/
theorem enc_apply (x : FVec Ideal S128x5000 .f32) (wb : FVec Ideal S2000x5000 .bf16) (b a : FVec Ideal S2000 .f32) (p : Fin 128) (q : Fin 2000) :
    k1_pay1 (F := Ideal) x wb b a (ix2 p q)
      = Cert.Spec.step 0x3F800000#32 (((∑ k : Fin 5000, x (ix2 p k) * wb (ix2 q k)) + b (ix1 q)) + a (ix1 q)) := by
  refine (Cert.Spec.step_eq_signed 0x3F800000#32 _).trans ?_
  exact congrArg (Cert.Spec.step _) (congrArg₂ (· + ·) (congrArg₂ (· + ·) (enc_dot x wb _ _ p q)
    (Cert.LibPlainDot.rowBroadcastTo_apply (R := 128) (C := 2000) b _ _ p q))
    (Cert.LibPlainDot.rowBroadcastTo_apply (R := 128) (C := 2000) a _ _ p q))

/-- Over the grid: the input rows move with the output rows, block t at rows 128t; every other window is whole. -/
theorem idx1 : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0
    ∧ win1_4.index t (0 : Fin 2) ≤ 31 ∧ win1_4.index t (1 : Fin 2) = 0 :=
  (by decide +kernel : ∀ t : Fin grid1.N, _)

/-- Every row block is some point's. -/
theorem onto1 : ∀ q : Fin 32, ∃ t : Fin cfg1.N, win1_4.index t = ![q.val, 0] :=
  (by decide +kernel : ∀ q : Fin 32, ∃ t : Fin grid1.N, win1_4.index t = ![q.val, 0])

/-- What point t writes back is block t of the hidden code of the arrays as the region finds them. -/
theorem flushed1 (c : Dev nD) (t : Fin cfg1.N) :
    (dat1 V c).flushed 4 t = ((cfg1.win 4).blk t).view.read (Elt Ideal)
      (Cert.Spec.hid (V c main_arg0) (V c main_v0) (V c main_arg2) (V c main_arg3)) := by
  show (cfg1.win 4).cut (grid1.coords t) ((dat1 V c).after 4 t) = _
  rw [after1_4]
  unfold out1_4
  rw [View.canon_unit_zero hz2']
  simp only [View.ld_unit_zero (S := S128x5000) hz2', View.ld_unit_zero (S := S2000x5000) hz2', View.ld_unit_zero (S := S2000) hz1']
  obtain ⟨e0, e1, e2, e3, e4, e5, -, e7⟩ := idx1 t
  funext j
  obtain ⟨p, q, rfl⟩ : ∃ (p : Fin 128) (q : Fin 2000), j = ix2 p q := ⟨j 0, j 1, eq_ix2 j⟩
  show k1_pay1 (F := Ideal) (iblk1 V c 0 t) (iblk1 V c 1 t) (iblk1 V c 2 t) (iblk1 V c 3 t) (ix2 p q)
    = Cert.Spec.hid (V c main_arg0) (V c main_v0) (V c main_arg2) (V c main_arg3) (((cfg1.win 4).blk t).view.emb (ix2 p q))
  rw [enc_apply]
  have hq : ((((cfg1.win 4).blk t).view.emb (ix2 p q)) 1).val = q.val := by
    show win1_4.index t (1 : Fin 2) * 2000 + 1 * q.val = q.val; omega
  have hp : ((((cfg1.win 4).blk t).view.emb (ix2 p q)) 0).val = win1_4.index t (0 : Fin 2) * 128 + p.val := by
    show win1_4.index t (0 : Fin 2) * 128 + 1 * p.val = _; omega
  refine congrArg (Cert.Spec.step _) (congrArg₂ (· + ·) (congrArg₂ (· + ·) (Finset.sum_congr rfl fun k _ => congrArg₂ (· * ·) ?_ ?_) ?_) ?_)
  · show V c main_arg0 (((cfg1.win 0).blk t).view.emb (ix2 p k)) = V c main_arg0 (ix2 _ k)
    refine congrArg _ (funext fun a => Fin.ext ?_)
    match a with
    | ⟨0, _⟩ => show win1_0.index t (0 : Fin 2) * 128 + 1 * p.val = _; rw [hp]; omega
    | ⟨1, _⟩ => show win1_0.index t (1 : Fin 2) * 5000 + 1 * k.val = k.val; omega
  · show V c main_v0 (((cfg1.win 1).blk t).view.emb (ix2 q k)) = V c main_v0 (ix2 _ k)
    refine congrArg _ (funext fun a => Fin.ext ?_)
    match a with
    | ⟨0, _⟩ => show win1_1.index t (0 : Fin 2) * 2000 + 1 * q.val = _; rw [hq]; omega
    | ⟨1, _⟩ => show win1_1.index t (1 : Fin 2) * 5000 + 1 * k.val = k.val; omega
  · show V c main_arg2 (((cfg1.win 2).blk t).view.emb (ix1 q)) = V c main_arg2 (ix1 _)
    refine congrArg _ (funext fun a => Fin.ext ?_)
    match a with
    | ⟨0, _⟩ => show win1_2.index t (0 : Fin 1) * 2000 + 1 * q.val = _; rw [hq]; omega
  · show V c main_arg3 (((cfg1.win 3).blk t).view.emb (ix1 q)) = V c main_arg3 (ix1 _)
    refine congrArg _ (funext fun a => Fin.ext ?_)
    match a with
    | ⟨0, _⟩ => show win1_3.index t (0 : Fin 1) * 2000 + 1 * q.val = _; rw [hq]; omega

/-- An entry is in point t's block iff each coordinate is in the block's range. -/
theorem mem_blk1 (t : Fin cfg1.N) (i : S4096x2000.Idx) :
    i ∈ ((cfg1.win 4).blk t).view.set ↔ ∀ a : Fin 2, win1_4.index t a * S128x2000.size a ≤ (i a).val ∧ (i a).val < win1_4.index t a * S128x2000.size a + S128x2000.size a := by
  show i ∈ ((View.whole main_v1).slice (win1_4.rect t)).set ↔ _
  rw [View.set_slice_whole, Rect.mem_set_unit]
  exact Iff.rfl

/-- The 32 row blocks cover the array. -/
theorem cover1 (i : S4096x2000.Idx) : ∃ t : Fin cfg1.N, (cfg1.win 4).flush t = true ∧ i ∈ ((cfg1.win 4).blk t).view.set := by
  have hi0 : (i 0).val < 4096 := (i 0).isLt
  have hi1 : (i 1).val < 2000 := (i 1).isLt
  obtain ⟨t, ht⟩ := onto1 ⟨(i 0).val / 128, by omega⟩
  have q0 : win1_4.index t (0 : Fin 2) = (i 0).val / 128 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 2000 ≤ (i 1).val ∧ (i 1).val < win1_4.index t (1 : Fin 2) * 2000 + 2000; omega

/-- After region 1 the result array holds the hidden code of the arrays as the region found them. -/
theorem final1 (c : Dev nD) :
    (dat1 V c).arrAt 4 cfg1.N = Cert.Spec.hid (V c main_arg0) (V c main_v0) (V c main_arg2) (V c main_arg3) :=
  (dat1 V c).arrAt_eq_of_cover 4 (Cert.Spec.hid (V c main_arg0) (V c main_v0) (V c main_arg2) (V c main_arg3))
    (fun t _ => flushed1 V c t) cover1

end Cert.KernelIdeal.Val

end
-- ==== Proof.Reg2.lean ====
/-
  Region 2: the reconstruction and the class scores, 128 rows of each per grid point.

  At an entry (p, d) of its block the body stores the step at one of   Σ_h z[p, h] · Wb[h, d]  +  a3[d]
  (a plain product into a zero accumulator, the bias row broadcast down the rows, the comparison with one widened and
  read as a signed integer), and at an entry (p, l) of the second output   Σ_h z[p, h] · g[l, h]
  (a product contracted on both operands' last axis). Rounding the hidden code's format changes nothing.
  Point t reads rows 128t … 128t + 127 of the hidden code, the weights, the gate and the bias row whole, and writes the
  same rows of both results; the 32 row blocks cover each array.
-/
import proofs.«180020_j15006615734352_1_alg».proof.Proof.Gen.KernelIdeal.Frame
import proofs.«180020_j15006615734352_1_alg».proof.Proof.Spec
import proofs.«180020_j15006615734352_1_alg».proof.Proof.LibDotRhsT
import proofs.«180020_j15006615734352_1_alg».proof.Proof.LibPlainDot
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2'' : (![0, 0] : Fin 2 → Nat) = fun _ => 0 := funext fun a => by fin_cases a <;> rfl
theorem hz1'' : (![0] : Fin 1 → Nat) = fun _ => 0 := funext fun a => by fin_cases a <;> rfl

/-- The hidden code recast to its own shape and rounded to the narrower format is the hidden code. -/
theorem zcast (z : FVec Ideal S128x2000 .f32) : k2_pay1 (F := Ideal) z = z := by
  unfold k2_pay1
  rw [shapeCast_self]
  rfl

/-- The reconstruction's product at an entry: the row of the hidden code against the column of the weights. -/
theorem dec_dot (z : FVec Ideal S128x2000 .f32) (wb : FVec Ideal S2000x5000 .bf16) (h2 : S2000x5000.ShapeCasts S2000x5000)
    (p : Fin 128) (q : Fin 5000) :
    FloatOps.matmul (F := Ideal) (φ₁ := .bf16) (φ₂ := .bf16) dot_S128x2000_S2000x5000_S128x5000_1_0_0_1_n_n none
        (k2_pay1 (F := Ideal) z) (shapeCast S2000x5000 wb h2) (constant S128x5000 .f32 0x00000000#32) (ix2 p q)
      = ∑ k : Fin 2000, z (ix2 p k) * wb (ix2 k q) := by
  rw [shapeCast_self, zcast]
  exact Cert.LibPlainDot.matmul_plain_zero (M := 128) (K := 2000) (N := 5000) none z wb (ix2 p q)

/-- The class scores' product at an entry: the row of the hidden code against the row of the gate. -/
theorem cls_dot (z : FVec Ideal S128x2000 .f32) (g : FVec Ideal S50x2000 .bf16) (h2 : S50x2000.ShapeCasts S50x2000)
    (p : Fin 128) (q : Fin 50) :
    FloatOps.matmul (F := Ideal) (φ₁ := .bf16) (φ₂ := .bf16) dot_S128x2000_S50x2000_S128x50_1_1_0_0_n_n none
        (k2_pay1 (F := Ideal) z) (shapeCast S50x2000 g h2) (constant S128x50 .f32 0x00000000#32) (ix2 p q)
      = ∑ k : Fin 2000, z (ix2 p k) * g (ix2 q k) := by
  rw [shapeCast_self, zcast]
  exact Cert.LibDotRhsT.matmul_zero (M := 128) (K := 2000) (N := 50) none z g (ix2 p q)

/-- The first output's stored value at entry (p, q) of its block. -/
theorem dec_apply (z : FVec Ideal S128x2000 .f32) (wb : FVec Ideal S2000x5000 .bf16) (a3 : FVec Ideal S5000 .f32) (p : Fin 128) (q : Fin 5000) :
    k2_pay2 (F := Ideal) z wb a3 (ix2 p q)
      = Cert.Spec.step 0x3F800000#32 ((∑ k : Fin 2000, z (ix2 p k) * wb (ix2 k q)) + a3 (ix1 q)) := by
  refine (Cert.Spec.step_eq_signed 0x3F800000#32 _).trans ?_
  exact congrArg (Cert.Spec.step _) (congrArg₂ (· + ·) (dec_dot z wb _ p q)
    (Cert.LibPlainDot.rowBroadcastTo_apply (R := 128) (C := 5000) a3 _ _ p q))

/-- The second output's stored value at entry (p, q) of its block. -/
theorem cls_apply (z : FVec Ideal S128x2000 .f32) (g : FVec Ideal S50x2000 .bf16) (p : Fin 128) (q : Fin 50) :
    k2_pay3 (F := Ideal) z g (ix2 p q) = ∑ k : Fin 2000, z (ix2 p k) * g (ix2 q k) :=
  cls_dot z g _ p q

/-- Over the grid: the hidden code's rows move with both outputs' rows, block t at rows 128t; every other window is whole. -/
theorem idx2 : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) ≤ 31 ∧ win2_4.index t (1 : Fin 2) = 0
    ∧ win2_5.index t (0 : Fin 2) = win2_4.index t (0 : Fin 2) ∧ win2_5.index t (1 : Fin 2) = 0 :=
  (by decide +kernel : ∀ t : Fin grid2.N, _)

/-- Every row block of either output is some point's. -/
theorem onto2_4 : ∀ q : Fin 32, ∃ t : Fin cfg2.N, win2_4.index t = ![q.val, 0] :=
  (by decide +kernel : ∀ q : Fin 32, ∃ t : Fin grid2.N, win2_4.index t = ![q.val, 0])
theorem onto2_5 : ∀ q : Fin 32, ∃ t : Fin cfg2.N, win2_5.index t = ![q.val, 0] :=
  (by decide +kernel : ∀ q : Fin 32, ∃ t : Fin grid2.N, win2_5.index t = ![q.val, 0])

/-- What point t writes back to the first output is block t of the reconstruction of the arrays as the region finds them. -/
theorem flushed2_out (c : Dev nD) (t : Fin cfg2.N) :
    (dat2 V c).flushed 4 t = ((cfg2.win 4).blk t).view.read (Elt Ideal)
      (Cert.Spec.dec (V c main_v1) (V c main_v0) (V c main_arg4)) := by
  show (cfg2.win 4).cut (grid2.coords t) ((dat2 V c).after 4 t) = _
  rw [after2_4]
  unfold out2_4
  rw [View.canon_unit_zero hz2'']
  simp only [View.ld_unit_zero (S := S128x2000) hz2'', View.ld_unit_zero (S := S2000x5000) hz2'', View.ld_unit_zero (S := S5000) hz1'']
  obtain ⟨e0, e1, e2, e3, -, -, e6, -, e8, -, -⟩ := idx2 t
  funext j
  obtain ⟨p, q, rfl⟩ : ∃ (p : Fin 128) (q : Fin 5000), j = ix2 p q := ⟨j 0, j 1, eq_ix2 j⟩
  show k2_pay2 (F := Ideal) (iblk2 V c 0 t) (iblk2 V c 1 t) (iblk2 V c 3 t) (ix2 p q)
    = Cert.Spec.dec (V c main_v1) (V c main_v0) (V c main_arg4) (((cfg2.win 4).blk t).view.emb (ix2 p q))
  rw [dec_apply]
  have hq : ((((cfg2.win 4).blk t).view.emb (ix2 p q)) 1).val = q.val := by
    show win2_4.index t (1 : Fin 2) * 5000 + 1 * q.val = q.val; omega
  have hp : ((((cfg2.win 4).blk t).view.emb (ix2 p q)) 0).val = win2_4.index t (0 : Fin 2) * 128 + p.val := by
    show win2_4.index t (0 : Fin 2) * 128 + 1 * p.val = _; omega
  refine congrArg (Cert.Spec.step _) (congrArg₂ (· + ·) (Finset.sum_congr rfl fun k _ => congrArg₂ (· * ·) ?_ ?_) ?_)
  · show V c main_v1 (((cfg2.win 0).blk t).view.emb (ix2 p k)) = V c main_v1 (ix2 _ k)
    refine congrArg _ (funext fun a => Fin.ext ?_)
    match a with
    | ⟨0, _⟩ => show win2_0.index t (0 : Fin 2) * 128 + 1 * p.val = _; rw [hp]; omega
    | ⟨1, _⟩ => show win2_0.index t (1 : Fin 2) * 2000 + 1 * k.val = k.val; omega
  · show V c main_v0 (((cfg2.win 1).blk t).view.emb (ix2 k q)) = V c main_v0 (ix2 k _)
    refine congrArg _ (funext fun a => Fin.ext ?_)
    match a with
    | ⟨0, _⟩ => show win2_1.index t (0 : Fin 2) * 2000 + 1 * k.val = k.val; omega
    | ⟨1, _⟩ => show win2_1.index t (1 : Fin 2) * 5000 + 1 * q.val = _; rw [hq]; omega
  · show V c main_arg4 (((cfg2.win 3).blk t).view.emb (ix1 q)) = V c main_arg4 (ix1 _)
    refine congrArg _ (funext fun a => Fin.ext ?_)
    match a with
    | ⟨0, _⟩ => show win2_3.index t (0 : Fin 1) * 5000 + 1 * q.val = _; rw [hq]; omega

/-- What point t writes back to the second output is block t of the class scores of the arrays as the region finds them. -/
theorem flushed2_cls (c : Dev nD) (t : Fin cfg2.N) :
    (dat2 V c).flushed 5 t = ((cfg2.win 5).blk t).view.read (Elt Ideal)
      (Cert.Spec.cls (V c main_v1) (V c main_v10)) := by
  show (cfg2.win 5).cut (grid2.coords t) ((dat2 V c).after 5 t) = _
  rw [after2_5]
  unfold out2_5
  rw [View.canon_unit_zero hz2'']
  simp only [View.ld_unit_zero (S := S128x2000) hz2'', View.ld_unit_zero (S := S50x2000) hz2'']
  obtain ⟨e0, e1, -, -, e4, e5, -, -, -, e9, e10⟩ := idx2 t
  funext j
  obtain ⟨p, q, rfl⟩ : ∃ (p : Fin 128) (q : Fin 50), j = ix2 p q := ⟨j 0, j 1, eq_ix2 j⟩
  show k2_pay3 (F := Ideal) (iblk2 V c 0 t) (iblk2 V c 2 t) (ix2 p q)
    = Cert.Spec.cls (V c main_v1) (V c main_v10) (((cfg2.win 5).blk t).view.emb (ix2 p q))
  rw [cls_apply]
  have hq : ((((cfg2.win 5).blk t).view.emb (ix2 p q)) 1).val = q.val := by
    show win2_5.index t (1 : Fin 2) * 50 + 1 * q.val = q.val; omega
  have hp : ((((cfg2.win 5).blk t).view.emb (ix2 p q)) 0).val = win2_4.index t (0 : Fin 2) * 128 + p.val := by
    show win2_5.index t (0 : Fin 2) * 128 + 1 * p.val = _; omega
  refine Finset.sum_congr rfl fun k _ => congrArg₂ (· * ·) ?_ ?_
  · show V c main_v1 (((cfg2.win 0).blk t).view.emb (ix2 p k)) = V c main_v1 (ix2 _ k)
    refine congrArg _ (funext fun a => Fin.ext ?_)
    match a with
    | ⟨0, _⟩ => show win2_0.index t (0 : Fin 2) * 128 + 1 * p.val = _; rw [hp]; omega
    | ⟨1, _⟩ => show win2_0.index t (1 : Fin 2) * 2000 + 1 * k.val = k.val; omega
  · show V c main_v10 (((cfg2.win 2).blk t).view.emb (ix2 q k)) = V c main_v10 (ix2 _ k)
    refine congrArg _ (funext fun a => Fin.ext ?_)
    match a with
    | ⟨0, _⟩ => show win2_2.index t (0 : Fin 2) * 50 + 1 * q.val = _; rw [hq]; omega
    | ⟨1, _⟩ => show win2_2.index t (1 : Fin 2) * 2000 + 1 * k.val = k.val; omega

/-- An entry of the first output is in point t's block iff each coordinate is in the block's range. -/
theorem mem_blk2_out (t : Fin cfg2.N) (i : S4096x5000.Idx) :
    i ∈ ((cfg2.win 4).blk t).view.set ↔ ∀ a : Fin 2, win2_4.index t a * S128x5000.size a ≤ (i a).val ∧ (i a).val < win2_4.index t a * S128x5000.size a + S128x5000.size a := by
  show i ∈ ((View.whole main_v11_0).slice (win2_4.rect t)).set ↔ _
  rw [View.set_slice_whole, Rect.mem_set_unit]
  exact Iff.rfl

/-- The same for the second output. -/
theorem mem_blk2_cls (t : Fin cfg2.N) (i : S4096x50.Idx) :
    i ∈ ((cfg2.win 5).blk t).view.set ↔ ∀ a : Fin 2, win2_5.index t a * S128x50.size a ≤ (i a).val ∧ (i a).val < win2_5.index t a * S128x50.size a + S128x50.size a := by
  show i ∈ ((View.whole main_v11_1).slice (win2_5.rect t)).set ↔ _
  rw [View.set_slice_whole, Rect.mem_set_unit]
  exact Iff.rfl

/-- The 32 row blocks cover the first output. -/
theorem cover2_out (i : S4096x5000.Idx) : ∃ t : Fin cfg2.N, (cfg2.win 4).flush t = true ∧ i ∈ ((cfg2.win 4).blk t).view.set := by
  have hi0 : (i 0).val < 4096 := (i 0).isLt
  have hi1 : (i 1).val < 5000 := (i 1).isLt
  obtain ⟨t, ht⟩ := onto2_4 ⟨(i 0).val / 128, by omega⟩
  have q0 : win2_4.index t (0 : Fin 2) = (i 0).val / 128 := congrFun ht 0
  have q1 : win2_4.index t (1 : Fin 2) = 0 := congrFun ht 1
  refine ⟨t, flush2_4 t, ?_⟩
  rw [mem_blk2_out]
  intro a
  match a with
  | ⟨0, _⟩ => show win2_4.index t (0 : Fin 2) * 128 ≤ (i 0).val ∧ (i 0).val < win2_4.index t (0 : Fin 2) * 128 + 128; omega
  | ⟨1, _⟩ => show win2_4.index t (1 : Fin 2) * 5000 ≤ (i 1).val ∧ (i 1).val < win2_4.index t (1 : Fin 2) * 5000 + 5000; omega

/-- The 32 row blocks cover the second output. -/
theorem cover2_cls (i : S4096x50.Idx) : ∃ t : Fin cfg2.N, (cfg2.win 5).flush t = true ∧ i ∈ ((cfg2.win 5).blk t).view.set := by
  have hi0 : (i 0).val < 4096 := (i 0).isLt
  have hi1 : (i 1).val < 50 := (i 1).isLt
  obtain ⟨t, ht⟩ := onto2_5 ⟨(i 0).val / 128, by omega⟩
  have q0 : win2_5.index t (0 : Fin 2) = (i 0).val / 128 := congrFun ht 0
  have q1 : win2_5.index t (1 : Fin 2) = 0 := congrFun ht 1
  refine ⟨t, flush2_5 t, ?_⟩
  rw [mem_blk2_cls]
  intro a
  match a with
  | ⟨0, _⟩ => show win2_5.index t (0 : Fin 2) * 128 ≤ (i 0).val ∧ (i 0).val < win2_5.index t (0 : Fin 2) * 128 + 128; omega
  | ⟨1, _⟩ => show win2_5.index t (1 : Fin 2) * 50 ≤ (i 1).val ∧ (i 1).val < win2_5.index t (1 : Fin 2) * 50 + 50; omega

/-- After region 2 the first output holds the reconstruction of the arrays as the region found them. -/
theorem final2_out (c : Dev nD) :
    (dat2 V c).arrAt 4 cfg2.N = Cert.Spec.dec (V c main_v1) (V c main_v0) (V c main_arg4) :=
  (dat2 V c).arrAt_eq_of_cover 4 (Cert.Spec.dec (V c main_v1) (V c main_v0) (V c main_arg4))
    (fun t _ => flushed2_out V c t) cover2_out

/-- And the second output their class scores. -/
theorem final2_cls (c : Dev nD) :
    (dat2 V c).arrAt 5 cfg2.N = Cert.Spec.cls (V c main_v1) (V c main_v10) :=
  (dat2 V c).arrAt_eq_of_cover 5 (Cert.Spec.cls (V c main_v1) (V c main_v10))
    (fun t _ => flushed2_cls V c t) cover2_cls

end Cert.KernelIdeal.Val

end
-- ==== Proof.KernelRun.lean ====
/-
  The kernel program's run with its three results named.

  The program is three kernel regions and one stretch of host operations. Region 0 binarises the weights,
  Wb = step_{1/2}(W); region 1 encodes, z = step_1((x·Wbᵀ + b) + a0); the host operations compute the gate
  g = 1/(1 + exp(−(cw/0.5))) from the classifier weights; region 2 decodes, out = step_1(z·Wb + a3), and scores,
  cls = z·gᵀ. The buffer contents are folded through the program boundary by boundary; here the fold is read back
  at the three result buffers: each region's result array holds the specification's function of what the region
  was entered with, and what it was entered with is in turn an earlier region's result, the host operations' result,
  or an argument array as launched. So the results are the specification's functions of the launch contents.
-/
import proofs.«180020_j15006615734352_1_alg».proof.Proof.Named
import proofs.«180020_j15006615734352_1_alg».proof.Proof.Reg0
import proofs.«180020_j15006615734352_1_alg».proof.Proof.Reg1
import proofs.«180020_j15006615734352_1_alg».proof.Proof.Reg2
import proofs.«180020_j15006615734352_1_alg».proof.Proof.Spec

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- The gate as the kernel's host operations compute it from the classifier weights: the logistic
    1 / (1 + exp (−(cw / 0.5))), entry by entry, then the change of format to bf16. -/
def gate {F : FTy → Type} [FloatOps F] (cw : (⟨S50x2000, .f32⟩ : BufTy).Contents (Elt F)) :
    (⟨S50x2000, .bf16⟩ : BufTy).Contents (Elt F) :=
  truncf .bf16
    (Host.divf (broadcastInDim S50x2000 ![] Gen.bcast_S_S50x2000 (constant S_ .f32 0x3F800000#32))
      (addf (broadcastInDim S50x2000 ![] Gen.bcast_S_S50x2000 (constant S_ .f32 0x3F800000#32))
        (Host.exp (Host.negf (Host.divf cw
          (broadcastInDim S50x2000 ![] Gen.bcast_S_S50x2000 (constant S_ .f32 0x3F000000#32)))))))
    Gen.bitsLt_bf16_f32

variable (m : (ℓ : Loc nD τ sig) → Buf (Elt Ideal) ℓ) (ρ : Dev nD → PrngReg)

/-- The hidden code of the launch contents. -/
abbrev zOf (c : Dev nD) :=
  Cert.Spec.hid (m ((c : Thread nD τ).loc main_arg0)) (Cert.Spec.binW (m ((c : Thread nD τ).loc main_arg1)))
    (m ((c : Thread nD τ).loc main_arg2)) (m ((c : Thread nD τ).loc main_arg3))

/-! ## No host operation writes these buffers -/

theorem w3_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_v0 (c : Dev nD) : W3 m ρ c (Proc.devRef .tc main_v0) = W2 m ρ c (Proc.devRef .tc main_v0) :=
  StableHlo.after_of_forall_not_mem (b := Proc.devRef .tc main_v0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## What the encoder is entered with (region 0's exit) -/

theorem v1_arg0 (c : Dev nD) : V1 m ρ c main_arg0 = m ((c : Thread nD τ).loc main_arg0) :=
  (W1_of_ne m ρ c main_arg0 (by decide)).trans rfl
theorem v1_arg2 (c : Dev nD) : V1 m ρ c main_arg2 = m ((c : Thread nD τ).loc main_arg2) :=
  (W1_of_ne m ρ c main_arg2 (by decide)).trans rfl
theorem v1_arg3 (c : Dev nD) : V1 m ρ c main_arg3 = m ((c : Thread nD τ).loc main_arg3) :=
  (W1_of_ne m ρ c main_arg3 (by decide)).trans rfl
/-- The binarised weights: region 0's result. -/
theorem v1_wb (c : Dev nD) : V1 m ρ c main_v0 = Cert.Spec.binW (m ((c : Thread nD τ).loc main_arg1)) :=
  calc V1 m ρ c main_v0
    _ = (dat0 (V0 m ρ) c).arrAt 1 cfg0.N := W1_arr m ρ c 1
    _ = Cert.Spec.binW (V0 m ρ c main_arg1) := final0 (V0 m ρ) c
    _ = Cert.Spec.binW (m ((c : Thread nD τ).loc main_arg1)) := rfl

/-! ## After the encoder (region 1's exit) -/

/-- The hidden code: region 1's result. -/
theorem w2_z (c : Dev nD) : W2 m ρ c (Proc.devRef .tc main_v1) = zOf m c :=
  calc W2 m ρ c (Proc.devRef .tc main_v1)
    _ = (dat1 (V1 m ρ) c).arrAt 4 cfg1.N := W2_arr m ρ c 4
    _ = Cert.Spec.hid (V1 m ρ c main_arg0) (V1 m ρ c main_v0) (V1 m ρ c main_arg2) (V1 m ρ c main_arg3) := final1 (V1 m ρ) c
    _ = zOf m c := by rw [v1_arg0, v1_wb, v1_arg2, v1_arg3]
/-- The encoder reads the binarised weights and leaves them. -/
theorem w2_wb (c : Dev nD) : W2 m ρ c (Proc.devRef .tc main_v0) = Cert.Spec.binW (m ((c : Thread nD τ).loc main_arg1)) :=
  calc W2 m ρ c (Proc.devRef .tc main_v0)
    _ = (dat1 (V1 m ρ) c).arrAt 1 cfg1.N := W2_arr m ρ c 1
    _ = (dat1 (V1 m ρ) c).A 1 := (dat1 (V1 m ρ) c).arrAt_in 1 rfl _
    _ = V1 m ρ c main_v0 := A_eq1 (V1 m ρ) c 1
    _ = Cert.Spec.binW (m ((c : Thread nD τ).loc main_arg1)) := v1_wb m ρ c
theorem w2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
theorem w2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## What the decoder is entered with (after the host operations) -/

theorem v3_z (c : Dev nD) : V3 m ρ c main_v1 = zOf m c := (w3_v1 m ρ c).trans (w2_z m ρ c)
theorem v3_wb (c : Dev nD) : V3 m ρ c main_v0 = Cert.Spec.binW (m ((c : Thread nD τ).loc main_arg1)) :=
  (w3_v0 m ρ c).trans (w2_wb m ρ c)
theorem v3_arg4 (c : Dev nD) : V3 m ρ c main_arg4 = m ((c : Thread nD τ).loc main_arg4) :=
  (w3_arg4 m ρ c).trans (w2_arg4 m ρ c)
/-- The gate: the host operations' last result, computed from the classifier weights as launched. -/
theorem v3_gate (c : Dev nD) :
    (V3 m ρ c main_v10 : (⟨S50x2000, .bf16⟩ : BufTy).Contents (Elt Ideal)) = gate (F := Ideal) (m ((c : Thread nD τ).loc main_arg5)) := by
  show StableHlo.after hostOps2 (W2 m ρ c) (Proc.devRef .tc main_v10) = _
  after_results
  rw [w2_arg5]
  rfl

/-! ## The three results at the last boundary -/

/-- The hidden code: the decoder reads it and leaves it. -/
theorem res_z (c : Dev nD) : W4 m ρ c (Proc.devRef .tc main_v1) = zOf m c :=
  calc W4 m ρ c (Proc.devRef .tc main_v1)
    _ = (dat2 (V3 m ρ) c).arrAt 0 cfg2.N := W4_arr m ρ c 0
    _ = (dat2 (V3 m ρ) c).A 0 := (dat2 (V3 m ρ) c).arrAt_in 0 rfl _
    _ = V3 m ρ c main_v1 := A_eq2 (V3 m ρ) c 0
    _ = zOf m c := v3_z m ρ c

/-- The reconstruction. -/
theorem res_out (c : Dev nD) : W4 m ρ c (Proc.devRef .tc main_v11_0)
    = Cert.Spec.dec (zOf m c) (Cert.Spec.binW (m ((c : Thread nD τ).loc main_arg1))) (m ((c : Thread nD τ).loc main_arg4)) :=
  calc W4 m ρ c (Proc.devRef .tc main_v11_0)
    _ = (dat2 (V3 m ρ) c).arrAt 4 cfg2.N := W4_arr m ρ c 4
    _ = Cert.Spec.dec (V3 m ρ c main_v1) (V3 m ρ c main_v0) (V3 m ρ c main_arg4) := final2_out (V3 m ρ) c
    _ = _ := by rw [v3_z, v3_wb, v3_arg4]

/-- The class scores. -/
theorem res_cls (c : Dev nD) : W4 m ρ c (Proc.devRef .tc main_v11_1)
    = Cert.Spec.cls (zOf m c) (gate (F := Ideal) (m ((c : Thread nD τ).loc main_arg5))) :=
  calc W4 m ρ c (Proc.devRef .tc main_v11_1)
    _ = (dat2 (V3 m ρ) c).arrAt 5 cfg2.N := W4_arr m ρ c 5
    _ = Cert.Spec.cls (V3 m ρ c main_v1) (V3 m ρ c main_v10) := final2_cls (V3 m ρ) c
    _ = _ := by rw [v3_z, v3_gate]

/-! ## The run -/

/-- At the compiled mesh, from any memory with zero counters, every weakly fair execution of @main on the TensorCores
    terminates, nothing faulting, and every final state has the reconstruction, the class scores and the hidden code
    as the specification gives them from the launch contents, and the six argument arrays as launched. -/
theorem run : θ_run (defs (F := Ideal)) (onTc (τ := τ) (main (F := Ideal))) ⟨m, fun _ => 0, ρ⟩ fun r => ∀ c : Dev nD,
      r.2.mem ((c.tc : Thread nD τ).loc main_v11_0)
        = Cert.Spec.dec (zOf m c) (Cert.Spec.binW (m ((c.tc : Thread nD τ).loc main_arg1))) (m ((c.tc : Thread nD τ).loc main_arg4))
      ∧ r.2.mem ((c.tc : Thread nD τ).loc main_v11_1)
        = Cert.Spec.cls (zOf m c) (gate (F := Ideal) (m ((c.tc : Thread nD τ).loc main_arg5)))
      ∧ r.2.mem ((c.tc : Thread nD τ).loc main_v1) = zOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c _ (mem_uc main_v11_0 (by decide))).trans (res_out m ρ c),
     (h c _ (mem_uc main_v11_1 (by decide))).trans (res_cls m ρ c),
     (h c _ (mem_uc main_v1 (by decide))).trans (res_z m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩)
    (Cert.KernelIdeal.GenN.run_named m ρ)

end Cert.KernelIdeal.Val

end
-- ==== Proof.RefSide.lean ====
/-
  The reference program's three results are the specification's functions.

  Stage by stage, each value of the reference is read at an index; the layout operations (transposes and
  broadcasts) only rename indices, the two comparisons against a constant followed by the 1-bit conversion are
  the step, and each matrix product is a finite sum over the contracted axis.
-/
import proofs.«180020_j15006615734352_1_alg».proof.Proof.Gen.ReferenceIdeal.Read
import proofs.«180020_j15006615734352_1_alg».proof.Proof.Spec
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx

/-- The binarised weights: each entry compared with one half, the bit read as a number. -/
theorem wb_eq (x1 : (⟨S2000x5000, .f32⟩ : BufTy).Contents (Elt Ideal)) :
    val_main_v2 (F := Ideal) x1 = Cert.Spec.binW x1 := by
  funext i
  rw [val_main_v2_apply, val_main_v1_apply, val_main_v0_apply, val_main_cst_apply]
  rfl

/-- The hidden code: the product against the transposed binarised weights is the sum over the input axis;
    the two bias rows are read at the column; the comparison with one and the bit read as a number are the step. -/
theorem z_eq (x0 : (⟨S4096x5000, .f32⟩ : BufTy).Contents (Elt Ideal)) (x1 : (⟨S2000x5000, .f32⟩ : BufTy).Contents (Elt Ideal))
    (x2 x3 : (⟨S2000, .f32⟩ : BufTy).Contents (Elt Ideal)) :
    val_main_v13 (F := Ideal) x0 x1 x2 x3 = Cert.Spec.hid x0 (Cert.Spec.binW x1) x2 x3 := by
  funext i
  rw [val_main_v13_apply, val_main_v12_apply, val_main_v10_apply, val_main_v7_apply, val_main_v4_apply,
    val_main_v6_apply, val_main_v5_apply, val_main_v9_apply, val_main_v8_apply, val_main_v11_apply,
    val_main_cst_0_apply]
  have hs : ∑ k : Fin 5000, x0 (lidx_main_v4 i k) * val_main_v3 (F := Ideal) x1 (ridx_main_v4 i k)
      = ∑ k : Fin 5000, x0 (ix2 (i 0) k) * Cert.Spec.binW x1 (ix2 (i 1) k) := by
    refine Finset.sum_congr rfl fun k _ => ?_
    rw [val_main_v3_apply, wb_eq]
    have e1 : lidx_main_v4 i k = ix2 (i 0) k := by
      funext a; match a with | ⟨0, _⟩ => rfl | ⟨1, _⟩ => rfl
    have e2 : idx_main_v3 (ridx_main_v4 i k) = ix2 (i 1) k := by
      funext a; match a with | ⟨0, _⟩ => rfl | ⟨1, _⟩ => rfl
    rw [e1, e2]
    rfl
  have eb : idx_main_v5 (idx_main_v6 i) = ix1 (i 1) := by
    funext a; match a with | ⟨0, _⟩ => rfl
  have ea : idx_main_v8 (idx_main_v9 i) = ix1 (i 1) := by
    funext a; match a with | ⟨0, _⟩ => rfl
  rw [hs, eb, ea]
  rfl

/-- The reconstruction: the product of the hidden code with the binarised weights is the sum over the hidden axis;
    the bias row is read at the column; the comparison with one and the bit read as a number are the step. -/
theorem out_eq (x0 : (⟨S4096x5000, .f32⟩ : BufTy).Contents (Elt Ideal)) (x1 : (⟨S2000x5000, .f32⟩ : BufTy).Contents (Elt Ideal))
    (x2 x3 : (⟨S2000, .f32⟩ : BufTy).Contents (Elt Ideal)) (x4 : (⟨S5000, .f32⟩ : BufTy).Contents (Elt Ideal)) :
    val_main_v30 (F := Ideal) x0 x1 x2 x3 x4
      = Cert.Spec.dec (Cert.Spec.hid x0 (Cert.Spec.binW x1) x2 x3) (Cert.Spec.binW x1) x4 := by
  funext i
  rw [val_main_v30_apply, val_main_v29_apply, val_main_v27_apply, val_main_v24_apply, val_main_v26_apply,
    val_main_v25_apply, val_main_v28_apply, val_main_cst_4_apply, z_eq, wb_eq]
  generalize Cert.Spec.hid x0 (Cert.Spec.binW x1) x2 x3 = z
  generalize Cert.Spec.binW x1 = wb
  have hs : ∑ k : Fin 2000, z (lidx_main_v24 i k) * wb (ridx_main_v24 i k)
      = ∑ k : Fin 2000, z (ix2 (i 0) k) * wb (ix2 k (i 1)) := by
    refine Finset.sum_congr rfl fun k _ => ?_
    have e1 : lidx_main_v24 i k = ix2 (i 0) k := by
      funext a; match a with | ⟨0, _⟩ => rfl | ⟨1, _⟩ => rfl
    have e2 : ridx_main_v24 i k = ix2 k (i 1) := by
      funext a; match a with | ⟨0, _⟩ => rfl | ⟨1, _⟩ => rfl
    rw [e1, e2]
    rfl
  have ea : idx_main_v25 (idx_main_v26 i) = ix1 (i 1) := by
    funext a; match a with | ⟨0, _⟩ => rfl
  rw [hs, ea]
  rfl

/-- The class scores: the product of the hidden code with the transposed gate is the sum over the hidden axis. -/
theorem cls_eq (x0 : (⟨S4096x5000, .f32⟩ : BufTy).Contents (Elt Ideal)) (x1 : (⟨S2000x5000, .f32⟩ : BufTy).Contents (Elt Ideal))
    (x2 x3 : (⟨S2000, .f32⟩ : BufTy).Contents (Elt Ideal)) (x5 : (⟨S50x2000, .f32⟩ : BufTy).Contents (Elt Ideal)) :
    val_main_v23 (F := Ideal) x0 x1 x2 x3 x5
      = Cert.Spec.cls (Cert.Spec.hid x0 (Cert.Spec.binW x1) x2 x3) (val_main_v21 (F := Ideal) x5) := by
  funext i
  rw [val_main_v23_apply, z_eq]
  show _ = ∑ k : Fin 2000, Cert.Spec.hid x0 (Cert.Spec.binW x1) x2 x3 (ix2 (i 0) k)
      * val_main_v21 (F := Ideal) x5 (ix2 (i 1) k)
  generalize Cert.Spec.hid x0 (Cert.Spec.binW x1) x2 x3 = z
  refine Finset.sum_congr rfl fun k _ => ?_
  rw [val_main_v22_apply]
  generalize val_main_v21 (F := Ideal) x5 = g
  have e1 : lidx_main_v23 i k = ix2 (i 0) k := by
    funext a; match a with | ⟨0, _⟩ => rfl | ⟨1, _⟩ => rfl
  have e2 : idx_main_v22 (ridx_main_v23 i k) = ix2 (i 1) k := by
    funext a; match a with | ⟨0, _⟩ => rfl | ⟨1, _⟩ => rfl
  rw [e1, e2]
  rfl

end Cert.RefSide

end
-- ==== Proof.lean ====
/-
  A binarised dense autoencoder with a class head, as three kernel regions, against its plain reference, over the
  extended reals.

  With  step_c(v) = 1 where v ≥ c, else 0,  and  Wb = step_{1/2}(W):
      z   = step_1((x · Wbᵀ + b) + a0)        the hidden code          [4096 x 2000]
      out = step_1(z · Wb + a3)               the reconstruction       [4096 x 5000]
      cls = z · gᵀ,  g = 1 / (1 + exp(−(cw / (1/2))))   the class scores   [4096 x 50]
  The kernel binarises the weights in a first region (ten row blocks), computes z in a second (32 row blocks; the
  product contracted on both operands' last axis), the gate g by host operations, and out and cls in a third (32 row
  blocks). It rounds the weights, the hidden code and the gate to a narrower float format before each product, which
  over the extended reals is the identity, and reads each comparison's bit widened as a signed integer, where the
  reference reads it as an unsigned one: a widened bit is 0 or 1 either way. The reference transposes an operand and
  takes a plain product where the kernel contracts on the last axes: the same finite sum, term by term in the same
  order. So no law of the extended reals beyond these readings is used, and the inputs' finiteness is not needed.

  Each region's result array is the specification's function of the arrays the region is entered with (the row blocks
  written at the grid points cover the array); these are threaded through the program's boundaries; the reference's
  results are read stage by stage as the same functions; the gate is the same composition of host operations on both
  sides. The three frames are the generated ones; the idealization rewrote nothing.
-/
import proofs.«180020_j15006615734352_1_alg».proof.Defs
import proofs.«180020_j15006615734352_1_alg».proof.Proof.Gen.Kernel
import proofs.«180020_j15006615734352_1_alg».proof.Proof.Gen.Kernel.Frame
import proofs.«180020_j15006615734352_1_alg».proof.Proof.Gen.KernelIdeal
import proofs.«180020_j15006615734352_1_alg».proof.Proof.Gen.KernelIdeal.Frame
import proofs.«180020_j15006615734352_1_alg».proof.Proof.Gen.ReferenceIdeal
import proofs.«180020_j15006615734352_1_alg».proof.Proof.Gen.ReferenceIdeal.Run
import proofs.«180020_j15006615734352_1_alg».proof.Proof.Gen.ReferenceIdeal.Read
import proofs.«180020_j15006615734352_1_alg».proof.Proof.Gen.Pre_finite_inputs
import proofs.«180020_j15006615734352_1_alg».proof.Proof.KernelRun
import proofs.«180020_j15006615734352_1_alg».proof.Proof.RefSide
import Idealize.ShloMosaic.Adequacy
import Idealize.ShloMosaic.Init

noncomputable section

namespace Cert.Proof

open Idealize.ShloMosaic Idealize.SL.Sem

/-- The gate is one composition of host operations in both programs (the kernel's closing change of format is the identity). -/
theorem gate_eq (cw : (⟨Cert.ReferenceIdeal.S50x2000, .f32⟩ : BufTy).Contents (Elt Ideal)) :
    Cert.KernelIdeal.Val.gate (F := Ideal) cw = Cert.ReferenceIdeal.Read.val_main_v21 (F := Ideal) cw := rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the reconstruction, the class scores and the hidden code of the launch contents. -/
theorem algebraic : Cert.algebraic_KernelIdeal_ReferenceIdeal := by
  intro m ρ m' ρ' _ hagree
  refine ⟨_, _, _, Cert.KernelIdeal.Val.run m ρ, ?_⟩
  refine (θ_run Cert.ReferenceIdeal.defs _ _).mono (fun _ h c => ?_) (Cert.ReferenceIdeal.Value.run (F := Ideal) m' ρ')
  obtain ⟨h30, h23, h13, hargs⟩ := h c
  obtain ⟨a0, a1, a2, a3, a4, a5⟩ := hagree c
  refine ⟨h30.trans ?_, h23.trans ?_, h13.trans ?_, hargs⟩
  · rw [Cert.ReferenceIdeal.Read.val_main_v30_eq, Cert.RefSide.out_eq, a0, a1, a2, a3, a4]
  · rw [Cert.ReferenceIdeal.Read.val_main_v23_eq, Cert.RefSide.cls_eq, a0, a1, a2, a3, a5, ← gate_eq]
  · rw [Cert.ReferenceIdeal.Read.val_main_v13_eq, Cert.RefSide.z_eq, a0, a1, a2, a3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
